-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000 : Shape := ⟨1, ![1000000]⟩
abbrev S64x128 : Shape := ⟨2, ![64, 128]⟩
abbrev S64 : Shape := ⟨1, ![64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S1000000x64 .f32) (main_arg1 : IVec S1000000 32) (main_arg2 : IVec S1000000 32) (main_arg3 : IVec S1000000 1) (main_arg4 : FVec F S64x128 .f32) (main_arg5 : FVec F S64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S1000000x64 : Shape := ⟨2, ![1000000, 64]⟩
abbrev S1000000 : Shape := ⟨1, ![1000000]⟩
abbrev S64x128 : Shape := ⟨2, ![64, 128]⟩
abbrev S64 : Shape := ⟨1, ![64]⟩
abbrev S_ : Shape := ⟨0, ![]⟩
abbrev S1000000x1 : Shape := ⟨2, ![1000000, 1]⟩
abbrev S64x64 : Shape := ⟨2, ![64, 64]⟩
abbrev S1x64 : Shape := ⟨2, ![1, 64]⟩
abbrev S10000x64 : Shape := ⟨2, ![10000, 64]⟩

abbrev nBuf : Space → Nat
  | .hbm => 38
  | .vmem => 9
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S1000000, .i32⟩
  | .hbm, ⟨3, _⟩ => ⟨S1000000, .i1⟩
  | .hbm, ⟨4, _⟩ => ⟨S64x128, .f32⟩
  | .hbm, ⟨5, _⟩ => ⟨S64, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S1000000x1, .i1⟩
  | .hbm, ⟨25, _⟩ => ⟨S_, .f32⟩
  | .hbm, ⟨26, _⟩ => ⟨S_, .f32⟩
  | .hbm, ⟨27, _⟩ => ⟨S1000000x64, .i1⟩
  | .hbm, ⟨28, _⟩ => ⟨S1000000x64, .f32⟩
  | .hbm, ⟨29, _⟩ => ⟨S1000000x64, .f32⟩
  | .hbm, ⟨30, _⟩ => ⟨S64x64, .f32⟩
  | .hbm, ⟨31, _⟩ => ⟨S64x64, .f32⟩
  | .hbm, ⟨32, _⟩ => ⟨S64x64, .bf16⟩
  | .hbm, ⟨33, _⟩ => ⟨S64x64, .f32⟩
  | .hbm, ⟨34, _⟩ => ⟨S64x64, .f32⟩
  | .hbm, ⟨35, _⟩ => ⟨S64x64, .bf16⟩
  | .hbm, ⟨36, _⟩ => ⟨S1x64, .f32⟩
  | .hbm, ⟨37, _⟩ => ⟨S1000000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .bf16⟩
  | .local _ .vmem, ⟨5, _⟩ => ⟨S64x64, .bf16⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S1000000x64 : S_.BroadcastsInDim S1000000x64 (![] : Fin 0 → Fin S1000000x64.rank)
  slices_S64x128_S64x64_0_0 : S64x128.Slices ![0, 0] S64x64
  transposes_S64x64_S64x64_1_0 : S64x64.Transposes [1, 0] S64x64
  bitsLt_bf16_f32 : FTy.bits .bf16 < FTy.bits .f32
  slices_S64x128_S64x64_0_64 : S64x128.Slices ![0, 64] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S1000000x64_S1000000x1_S1000000x64_1_0_n_n_0_1_164_wf : GatherDims.WF S1000000x64 S1000000x1 S1000000x64 [1] [0] [] [0] [] 1 ![1, 64]
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1000000x64.size a
  hwx0_1 : ∀ i : grid0.Coords, EltTy.bits .f32 = 32 ∨ (Rect.block (s := S1000000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S1000000x64.size a
  hwx0_5 : ∀ i : grid0.Coords, EltTy.bits .f32 = 32 ∨ (Rect.block (s := S1000000x64) S10000x64.size (cc0_transform_5 i) (hinb0_5 i)).WholeWords (EltTy.packing .f32)

variable [Facts₀]

def gather_S1000000x64_S1000000x1_S1000000x64_1_0_n_n_0_1_164 : GatherDims S1000000x64 S1000000x1 S1000000x64 where
  offsetDims := [1]
  collapsedSliceDims := [0]
  operandBatchingDims := []
  startIndicesBatchingDims := []
  startIndexMap := [0]
  indexVectorDim := 1
  sliceSizes := ![1, 64]
  wf := gather_S1000000x64_S1000000x1_S1000000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S1000000 : Shape := ⟨1, ![1000000]⟩
abbrev S64x128 : Shape := ⟨2, ![64, 128]⟩
abbrev S64 : Shape := ⟨1, ![64]⟩
abbrev S_ : Shape := ⟨0, ![]⟩
abbrev S1000000x1 : Shape := ⟨2, ![1000000, 1]⟩
abbrev S1000000x128 : Shape := ⟨2, ![1000000, 128]⟩
abbrev S128x64 : Shape := ⟨2, ![128, 64]⟩
abbrev S1x64 : Shape := ⟨2, ![1, 64]⟩

abbrev nBuf : Space → Nat
  | .hbm => 39
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S1000000, .i32⟩
  | .hbm, ⟨3, _⟩ => ⟨S1000000, .i1⟩
  | .hbm, ⟨4, _⟩ => ⟨S64x128, .f32⟩
  | .hbm, ⟨5, _⟩ => ⟨S64, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S1000000x1, .i1⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x64, .f32⟩
  | .hbm, ⟨25, _⟩ => ⟨S_, .f32⟩
  | .hbm, ⟨26, _⟩ => ⟨S_, .f32⟩
  | .hbm, ⟨27, _⟩ => ⟨S1000000x64, .i1⟩
  | .hbm, ⟨28, _⟩ => ⟨S1000000x64, .f32⟩
  | .hbm, ⟨29, _⟩ => ⟨S1000000x64, .f32⟩
  | .hbm, ⟨30, _⟩ => ⟨S1000000x128, .f32⟩
  | .hbm, ⟨31, _⟩ => ⟨S128x64, .f32⟩
  | .hbm, ⟨32, _⟩ => ⟨S1000000x64, .f32⟩
  | .hbm, ⟨33, _⟩ => ⟨S1x64, .f32⟩
  | .hbm, ⟨34, _⟩ => ⟨S1000000x64, .f32⟩
  | .hbm, ⟨35, _⟩ => ⟨S1000000x64, .f32⟩
  | .hbm, ⟨36, _⟩ => ⟨S_, .f32⟩
  | .hbm, ⟨37, _⟩ => ⟨S1000000x64, .f32⟩
  | .hbm, ⟨38, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call1_cst : Ref sig .tc := ⟨.hbm, 36, rfl⟩
abbrev main_call1_v0 : Ref sig .tc := ⟨.hbm, 37, rfl⟩
abbrev main_v22 : Ref sig .tc := ⟨.hbm, 38, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S1000000x64 : S_.BroadcastsInDim S1000000x64 (![] : Fin 0 → Fin S1000000x64.rank)
  concatenates_S1000000x64_S1000000x64_S1000000x128_d1 : Shape.Concatenates [S1000000x64, S1000000x64] S1000000x128 1
  transposes_S64x128_S128x64_1_0 : S64x128.Transposes [1, 0] S128x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  gather_S1000000x64_S1000000x1_S1000000x64_1_0_n_n_0_1_164_wf : GatherDims.WF S1000000x64 S1000000x1 S1000000x64 [1] [0] [] [0] [] 1 ![1, 64]
  dot_S1000000x128_S128x64_S1000000x64_1_0_0_1_n_n_wf : DotDims.WF S1000000x128 S128x64 S1000000x64 [1] [0] [0] [1] [] []

variable [Facts₀]

def gather_S1000000x64_S1000000x1_S1000000x64_1_0_n_n_0_1_164 : GatherDims S1000000x64 S1000000x1 S1000000x64 where
  offsetDims := [1]
  collapsedSliceDims := [0]
  operandBatchingDims := []
  startIndicesBatchingDims := []
  startIndexMap := [0]
  indexVectorDim := 1
  sliceSizes := ![1, 64]
  wf := gather_S1000000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf

class Facts : Prop extends Facts₀ where

variable [Facts]
-- ==== Proof.TileValue.lean ====
/-
  One grid point's arithmetic, read at an entry of the output tile.

  The body of the kernel holds a tile of 10000 half-edges: the gathered "next" features `x0` and the masked "twin"
  features `x1` (each 10000 × 64), the two 64 × 64 halves `w0`, `w1` of the transposed weight, and the bias as a
  one-row matrix `bb`.  At the exact instance a change of float format is the identity and a matrix product into a
  zero accumulator is the plain sum over the contracted axis, so entry (n, j) of what the body stores is

      max ( Σ_{k<64} x0[n,k] · w0[k,j]  +  Σ_{k<64} x1[n,k] · w1[k,j]  +  bb[0,j] ,  0 ).
-/
import proofs.«143284_j63668595196147_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-! ## The tile product's operand indices: row n of the left operand against column j of the right -/

theorem lhs_tile_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_tile_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_tile_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_tile_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (n, k) of a 10000 × 64 tile and entry (k, j) of a 64 × 64 weight half. -/
abbrev rowIdx (i : S10000x64.Idx) (k : Fin 64) : S10000x64.Idx := fun a => match a with
  | ⟨0, _⟩ => ⟨(i 0).val, (i 0).isLt⟩
  | ⟨1, _⟩ => ⟨k.val, k.isLt⟩
abbrev colIdx (i : S10000x64.Idx) (k : Fin 64) : S64x64.Idx := fun a => match a with
  | ⟨0, _⟩ => ⟨k.val, k.isLt⟩
  | ⟨1, _⟩ => ⟨(i 1).val, (i 1).isLt⟩
/-- Entry (0, j) of the one-row bias. -/
abbrev biasIdx (i : S10000x64.Idx) : S1x64.Idx := fun a => match a with
  | ⟨0, _⟩ => ⟨0, Nat.one_pos⟩
  | ⟨1, _⟩ => ⟨(i 1).val, (i 1).isLt⟩

/-- The tile product into a zero accumulator is the sum over the 64 contracted channels. -/
theorem tileProduct_apply (l : FVec Ideal S10000x64 .bf16) (r : FVec Ideal S64x64 .bf16) (i : S10000x64.Idx) :
    matmul dot_S10000x64_S64x64_S10000x64_1_0_0_1_n_n none l r (constant (F := Ideal) S10000x64 .f32 0x00000000#32) i
      = ∑ k : Fin 64, l (rowIdx i k) * r (colIdx i k) := by
  show FloatOps.matmul dot_S10000x64_S64x64_S10000x64_1_0_0_1_n_n none l r (constant (F := Ideal) S10000x64 .f32 0x00000000#32) i = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx i ((ValueIdx.contrEquiv1 dot_S10000x64_S64x64_S10000x64_1_0_0_1_n_n 64 rfl rfl).symm k) = rowIdx i k := funext fun a => Fin.ext (by
    match a with
    | ⟨0, _⟩ => exact lhs_tile_0 _ _
    | ⟨1, _⟩ => exact (lhs_tile_1 _ _).trans hk)
  have er : dot_S10000x64_S64x64_S10000x64_1_0_0_1_n_n.rhsIdx i ((ValueIdx.contrEquiv1 dot_S10000x64_S64x64_S10000x64_1_0_0_1_n_n 64 rfl rfl).symm k) = colIdx i k := funext fun a => Fin.ext (by
    match a with
    | ⟨0, _⟩ => exact (rhs_tile_0 _ _).trans hk
    | ⟨1, _⟩ => exact rhs_tile_1 _ _)
  rw [el, er]

/-- The one-row bias spread down the tile's rows. -/
theorem biasRows_apply (bb : FVec Ideal S1x64 .f32) (i : S10000x64.Idx) :
    broadcastTo S10000x64 bb broadcasts_S1x64_S10000x64 i = bb (biasIdx i) :=
  broadcastTo_apply bb broadcasts_S1x64_S10000x64 i (biasIdx i) (fun a => match a with
    | ⟨0, _⟩ => by show 0 = if (1 : Nat) = 1 then 0 else _; rw [if_pos rfl]
    | ⟨1, _⟩ => by show (i 1).val = if (64 : Nat) = 1 then 0 else _; rw [if_neg (by decide)]; rfl)

/-- WHAT THE BODY STORES at entry `i` = (n, j) of the tile. -/
theorem stored_apply (x0 x1 : Vec Ideal S10000x64 .f32) (w0 w1 : Vec Ideal S64x64 .bf16) (bb : Vec Ideal S1x64 .f32) (i : S10000x64.Idx) :
    k0_pay1 (F := Ideal) x0 x1 w0 w1 bb i
      = max ((∑ k : Fin 64, x0 (rowIdx i k) * w0 (colIdx i k)) + (∑ k : Fin 64, x1 (rowIdx i k) * w1 (colIdx i k)) + bb (biasIdx i)) 0 := by
  unfold k0_pay1
  rw [maximumf_apply, addf_apply, addf_apply, tileProduct_apply, tileProduct_apply, biasRows_apply]
  simp only [shapeCast_self, truncf_apply, broadcast_apply]
  show max _ (Ideal.ofBits .f32 0x00000000#32) = _
  rw [Ideal.ofBits_zero_f32]

end Cert.KernelIdeal.Tile

end
-- ==== Proof.Rows.lean ====
/-
  From tiles to the whole output.

  The grid has 100 points; point t holds rows 10000·t … 10000·t + 9999 of the two gathered feature arrays and of
  the output, and the whole of the two weight halves and of the bias row.  So what point t writes back is rows
  10000·t … of ONE function of the five staged arrays,

      out[n, j] = max ( Σ_{k<64} a0[n,k] · w0[k,j]  +  Σ_{k<64} a1[n,k] · w1[k,j]  +  bb[0,j] ,  0 ),

  and since the 100 row blocks tile the 1000000 rows (row n lies in block n / 10000), the output array ends as that
  function everywhere.
-/
import proofs.«143284_j63668595196147_1_alg».proof.Proof.Gen.KernelIdeal.Value
import proofs.«143284_j63668595196147_1_alg».proof.Proof.TileValue
import Idealize.ShloMosaic.Lib.Pipeline.Value

noncomputable section

namespace Cert.KernelIdeal.Rows

open Cert.KernelIdeal Cert.KernelIdeal.Gen Cert.KernelIdeal.Tile Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Entry (n, k) of a 1000000 × 64 array, entry (k, j) of a weight half and entry (0, j) of the bias row, for the output entry (n, j). -/
abbrev featIdx (i : S1000000x64.Idx) (k : Fin 64) : S1000000x64.Idx := fun a => match a with
  | ⟨0, _⟩ => ⟨(i 0).val, (i 0).isLt⟩
  | ⟨1, _⟩ => ⟨k.val, k.isLt⟩
abbrev weightIdx (i : S1000000x64.Idx) (k : Fin 64) : S64x64.Idx := fun a => match a with
  | ⟨0, _⟩ => ⟨k.val, k.isLt⟩
  | ⟨1, _⟩ => ⟨(i 1).val, (i 1).isLt⟩
abbrev biasAt (i : S1000000x64.Idx) : S1x64.Idx := fun a => match a with
  | ⟨0, _⟩ => ⟨0, Nat.one_pos⟩
  | ⟨1, _⟩ => ⟨(i 1).val, (i 1).isLt⟩

/-- The layer over the five staged arrays, entry by entry. -/
def layerOf (a0 a1 : S1000000x64.Idx → EReal) (w0 w1 : S64x64.Idx → EReal) (bb : S1x64.Idx → EReal) : S1000000x64.Idx → EReal :=
  fun i => max ((∑ k : Fin 64, a0 (featIdx i k) * w0 (weightIdx i k)) + (∑ k : Fin 64, a1 (featIdx i k) * w1 (weightIdx i k)) + bb (biasAt i)) 0

/-- The printed index maps over the grid: the row windows sit at block t, the others at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks and the arrays, each at its literal type -/

abbrev nextBlk (c : Dev nD) (t : Fin cfg0.N) : S10000x64.Idx → EReal := iblk m c 0 t
abbrev twinBlk (c : Dev nD) (t : Fin cfg0.N) : S10000x64.Idx → EReal := iblk m c 1 t
abbrev leftBlk (c : Dev nD) (t : Fin cfg0.N) : S64x64.Idx → EReal := iblk m c 2 t
abbrev rightBlk (c : Dev nD) (t : Fin cfg0.N) : S64x64.Idx → EReal := iblk m c 3 t
abbrev biasBlk (c : Dev nD) (t : Fin cfg0.N) : S1x64.Idx → EReal := iblk m c 4 t
abbrev nextArr (c : Dev nD) : S1000000x64.Idx → EReal := V m c main_v6
abbrev twinArr (c : Dev nD) : S1000000x64.Idx → EReal := V m c main_v15
abbrev leftArr (c : Dev nD) : S64x64.Idx → EReal := V m c main_v18
abbrev rightArr (c : Dev nD) : S64x64.Idx → EReal := V m c main_v21
abbrev biasArr (c : Dev nD) : S1x64.Idx → EReal := V m c main_v22

/-! ## Each window's block at point t, read off its array -/

theorem nextBlock_apply (c : Dev nD) (t : Fin cfg0.N) (y : S10000x64.Idx) (i : S1000000x64.Idx)
    (h0 : (i 0).val = 10000 * t.val + (y 0).val) (h1 : (i 1).val = (y 1).val) :
    nextBlk m c t y = nextArr m c i := by
  obtain ⟨e0, e1, -⟩ := idx_facts t
  have h : ((cfg0.win 0).blk t).view.emb y = i := by
    funext a; apply Fin.ext
    match a with
    | ⟨0, _⟩ => show win0_0.index t (0 : Fin 2) * 10000 + 1 * (y 0).val = (i 0).val; rw [e0, h0]; omega
    | ⟨1, _⟩ => show win0_0.index t (1 : Fin 2) * 64 + 1 * (y 1).val = (i 1).val; rw [e1, h1]; omega
  show (iblk m c 0 t) y = _
  unfold iblk
  rw [View.read_apply]
  exact congrArg (nextArr m c) h

theorem twinBlock_apply (c : Dev nD) (t : Fin cfg0.N) (y : S10000x64.Idx) (i : S1000000x64.Idx)
    (h0 : (i 0).val = 10000 * t.val + (y 0).val) (h1 : (i 1).val = (y 1).val) :
    twinBlk m c t y = twinArr m c i := by
  obtain ⟨-, -, e0, e1, -⟩ := idx_facts t
  have h : ((cfg0.win 1).blk t).view.emb y = i := by
    funext a; apply Fin.ext
    match a with
    | ⟨0, _⟩ => show win0_1.index t (0 : Fin 2) * 10000 + 1 * (y 0).val = (i 0).val; rw [e0, h0]; omega
    | ⟨1, _⟩ => show win0_1.index t (1 : Fin 2) * 64 + 1 * (y 1).val = (i 1).val; rw [e1, h1]; omega
  show (iblk m c 1 t) y = _
  unfold iblk
  rw [View.read_apply]
  exact congrArg (twinArr m c) h

theorem leftBlock_apply (c : Dev nD) (t : Fin cfg0.N) (y : S64x64.Idx) :
    leftBlk m c t y = leftArr m c y := by
  obtain ⟨-, -, -, -, e0, e1, -⟩ := idx_facts t
  have h : ((cfg0.win 2).blk t).view.emb y = y := by
    funext a; apply Fin.ext
    match a with
    | ⟨0, _⟩ => show win0_2.index t (0 : Fin 2) * 64 + 1 * (y 0).val = (y 0).val; rw [e0]; omega
    | ⟨1, _⟩ => show win0_2.index t (1 : Fin 2) * 64 + 1 * (y 1).val = (y 1).val; rw [e1]; omega
  show (iblk m c 2 t) y = _
  unfold iblk
  rw [View.read_apply]
  exact congrArg (leftArr m c) h

theorem rightBlock_apply (c : Dev nD) (t : Fin cfg0.N) (y : S64x64.Idx) :
    rightBlk m c t y = rightArr m c y := by
  obtain ⟨-, -, -, -, -, -, e0, e1, -⟩ := idx_facts t
  have h : ((cfg0.win 3).blk t).view.emb y = y := by
    funext a; apply Fin.ext
    match a with
    | ⟨0, _⟩ => show win0_3.index t (0 : Fin 2) * 64 + 1 * (y 0).val = (y 0).val; rw [e0]; omega
    | ⟨1, _⟩ => show win0_3.index t (1 : Fin 2) * 64 + 1 * (y 1).val = (y 1).val; rw [e1]; omega
  show (iblk m c 3 t) y = _
  unfold iblk
  rw [View.read_apply]
  exact congrArg (rightArr m c) h

theorem biasBlock_apply (c : Dev nD) (t : Fin cfg0.N) (y : S1x64.Idx) :
    biasBlk m c t y = biasArr m c y := by
  obtain ⟨-, -, -, -, -, -, -, -, e0, e1, -⟩ := idx_facts t
  have h : ((cfg0.win 4).blk t).view.emb y = y := by
    funext a; apply Fin.ext
    match a with
    | ⟨0, _⟩ => show win0_4.index t (0 : Fin 2) * 1 + 1 * (y 0).val = (y 0).val; rw [e0]; omega
    | ⟨1, _⟩ => show win0_4.index t (1 : Fin 2) * 64 + 1 * (y 1).val = (y 1).val; rw [e1]; omega
  show (iblk m c 4 t) y = _
  unfold iblk
  rw [View.read_apply]
  exact congrArg (biasArr m c) h

/-! ## What a point writes back, and the whole array -/

/-- Entry `y` of the tile point t stores is entry `i` = (10000·t + y₀, y₁) of the layer over the staged arrays. -/
theorem point_apply (c : Dev nD) (t : Fin cfg0.N) (y : S10000x64.Idx) (i : S1000000x64.Idx)
    (h0 : (i 0).val = 10000 * t.val + (y 0).val) (h1 : (i 1).val = (y 1).val) :
    k0_pay1 (F := Ideal) (iblk m c 0 t) (iblk m c 1 t) (iblk m c 2 t) (iblk m c 3 t) (iblk m c 4 t) y
      = layerOf (nextArr m c) (twinArr m c) (leftArr m c) (rightArr m c) (biasArr m c) i := by
  refine (stored_apply (nextBlk m c t) (twinBlk m c t) (leftBlk m c t) (rightBlk m c t) (biasBlk m c t) y).trans ?_
  have ew : ∀ k : Fin 64, colIdx y k = weightIdx i k := fun k => funext fun a => Fin.ext (by
    match a with
    | ⟨0, _⟩ => rfl
    | ⟨1, _⟩ => exact h1.symm)
  have eb : biasIdx y = biasAt i := funext fun a => Fin.ext (by
    match a with
    | ⟨0, _⟩ => rfl
    | ⟨1, _⟩ => exact h1.symm)
  have s0 : ∀ k : Fin 64, nextBlk m c t (rowIdx y k) * leftBlk m c t (colIdx y k)
      = nextArr m c (featIdx i k) * leftArr m c (weightIdx i k) := fun k => by
    rw [nextBlock_apply m c t (rowIdx y k) (featIdx i k) h0 rfl, leftBlock_apply m c t (colIdx y k), ew k]
  have s1 : ∀ k : Fin 64, twinBlk m c t (rowIdx y k) * rightBlk m c t (colIdx y k)
      = twinArr m c (featIdx i k) * rightArr m c (weightIdx i k) := fun k => by
    rw [twinBlock_apply m c t (rowIdx y k) (featIdx i k) h0 rfl, rightBlock_apply m c t (colIdx y k), ew k]
  have s2 : biasBlk m c t (biasIdx y) = biasArr m c (biasAt i) := by
    rw [biasBlock_apply m c t (biasIdx y), eb]
  unfold layerOf
  rw [Finset.sum_congr rfl fun k _ => s0 k, Finset.sum_congr rfl fun k _ => s1 k, s2]

/-- WHAT POINT t WRITES BACK is block t of the layer over the staged arrays. -/
theorem flushed_eq (c : Dev nD) (t : Fin cfg0.N) :
    (dats m 0 c).flushed 5 t = ((cfg0.win 5).blk t).view.read (Elt Ideal)
      (layerOf (nextArr m c) (twinArr m c) (leftArr m c) (rightArr m c) (biasArr m c)) := by
  rw [Cert.KernelIdeal.Value.flushed5]
  unfold out0_5
  rw [View.canon_unit_zero origin]
  simp only [View.ld_unit_zero (S := S10000x64) origin, View.ld_unit_zero (S := S64x64) origin, View.ld_unit_zero (S := S1x64) origin]
  obtain ⟨-, -, -, -, -, -, -, -, -, -, e0, e1⟩ := idx_facts t
  funext j
  exact point_apply m c t j (((cfg0.win 5).blk t).view.emb j)
    (by show win0_5.index t (0 : Fin 2) * 10000 + 1 * (j 0).val = _; rw [e0]; omega)
    (by show win0_5.index t (1 : Fin 2) * 64 + 1 * (j 1).val = _; rw [e1]; omega)

/-- An index of the output is in point t's block iff each coordinate is in the block's range on its axis. -/
theorem mem_block (t : Fin cfg0.N) (i : S1000000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v23).slice (win0_5.rect t)).set ↔ _
  rw [View.set_slice_whole, Rect.mem_set_unit]
  exact Iff.rfl

/-- Row n lies in the block of point n / 10000: the blocks tile the output. -/
theorem covered (i : S1000000x64.Idx) : ∃ t : Fin cfg0.N, (cfg0.win 5).flush t = true ∧ i ∈ ((cfg0.win 5).blk t).view.set := by
  have hi0 : (i 0).val < 1000000 := (i 0).isLt
  have hi1 : (i 1).val < 64 := (i 1).isLt
  have hN : cfg0.N = 100 := N_0
  have hq : (i 0).val / 10000 < cfg0.N := by rw [hN]; omega
  obtain ⟨-, -, -, -, -, -, -, -, -, -, e0, e1⟩ := idx_facts ⟨(i 0).val / 10000, hq⟩
  refine ⟨⟨(i 0).val / 10000, hq⟩, flush0_5 _, ?_⟩
  rw [mem_block]
  intro a
  match a with
  | ⟨0, _⟩ =>
    show win0_5.index ⟨(i 0).val / 10000, hq⟩ (0 : Fin 2) * 10000 ≤ (i 0).val ∧ (i 0).val < win0_5.index ⟨(i 0).val / 10000, hq⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, hq⟩ (1 : Fin 2) * 64 ≤ (i 1).val ∧ (i 1).val < win0_5.index ⟨(i 0).val / 10000, hq⟩ (1 : Fin 2) * 64 + 64
    rw [e1]; omega

/-- THE OUTPUT ARRAY after the run is the layer over the staged arrays. -/
theorem final (c : Dev nD) : (dats m 0 c).arrAt 5 cfg0.N
    = layerOf (nextArr m c) (twinArr m c) (leftArr m c) (rightArr m c) (biasArr m c) :=
  (dats m 0 c).arrAt_eq_of_cover 5 (layerOf (nextArr m c) (twinArr m c) (leftArr m c) (rightArr m c) (biasArr m c))
    (fun t _ => flushed_eq m c t) covered

end Cert.KernelIdeal.Rows

end
-- ==== Proof.Staged.lean ====
/-
  What the region finds in the five arrays its windows read.

  Before the launch the host gathers, for every half-edge, the feature row of its "next" half-edge and of its "twin"
  (an index below zero counts from the end: it is raised by the number of rows), blanks the twin row to zero where
  the half-edge has no twin, cuts the weight matrix into its left and right 64-column halves and transposes each,
  and lays the bias out as a one-row matrix.  Each of these arrays is a pure term of the program's arguments.
-/
import proofs.«143284_j63668595196147_1_alg».proof.Proof.Gen.KernelIdeal.Frame
import Idealize.ShloMosaic.Lib.StableHlo.Run

noncomputable section

namespace Cert.KernelIdeal.Staged

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- A column of row numbers, a negative one counted from the end of the 1000000 rows. -/
abbrev rowNumbers (x : (⟨S1000000, .i32⟩ : BufTy).Contents (Elt F)) : (⟨S1000000x1, .i32⟩ : BufTy).Contents (Elt F) :=
  broadcastInDim S1000000x1 ![0] bcast_S1000000_S1000000x1_0 (select (cmpi .slt x (broadcastInDim S1000000 ![] bcast_S_S1000000 (constantI S_ 32 0#32))) (addi x (broadcastInDim S1000000 ![] bcast_S_S1000000 (constantI S_ 32 1000000#32))) x)

/-- The feature rows picked out by a column of row numbers. -/
abbrev rowsAt (x : (⟨S1000000x64, .f32⟩ : BufTy).Contents (Elt F)) (idx : (⟨S1000000, .i32⟩ : BufTy).Contents (Elt F)) : (⟨S1000000x64, .f32⟩ : BufTy).Contents (Elt F) :=
  Host.gather gather_S1000000x64_S1000000x1_S1000000x64_1_0_n_n_0_1_164 x (rowNumbers (F := F) idx)

/-- The twin rows, zero where the half-edge has no twin. -/
abbrev twinRows (x : (⟨S1000000x64, .f32⟩ : BufTy).Contents (Elt F)) (idx : (⟨S1000000, .i32⟩ : BufTy).Contents (Elt F)) (has : (⟨S1000000, .i1⟩ : BufTy).Contents (Elt F)) : (⟨S1000000x64, .f32⟩ : BufTy).Contents (Elt F) :=
  select (broadcastInDim S1000000x64 ![0, 1] bcast_S1000000x1_S1000000x64_0_1 (broadcastInDim S1000000x1 ![0] bcast_S1000000_S1000000x1_0 has))
    (rowsAt (F := F) x idx) (broadcastInDim S1000000x64 ![] bcast_S_S1000000x64 (id (constant S_ .f32 0x00000000#32)))

/-- Window 0's array: the "next" rows. -/
theorem next_eq (c : Dev nD) : (V m c main_v6 : (⟨S1000000x64, .f32⟩ : BufTy).Contents (Elt F))
    = rowsAt (F := F) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp <;> rfl

set_option maxHeartbeats 2000000 in
/-- Window 1's array: the masked "twin" rows. -/
theorem twin_eq (c : Dev nD) : (V m c main_v15 : (⟨S1000000x64, .f32⟩ : BufTy).Contents (Elt F))
    = twinRows (F := F) (m ((c : Thread nD τ).loc main_arg0)) (m ((c : Thread nD τ).loc main_arg2)) (m ((c : Thread nD τ).loc main_arg3)) := by
  dsimp only [V]
  simp only [hostOps0, hostOps0_1, hostOps0_2, List.flatten_cons, List.flatten_nil, List.append_nil, List.cons_append, List.nil_append]
  after_results_simp <;> rfl

/-- Window 2's array: the left half of the weight, transposed. -/
theorem wLeft_eq (c : Dev nD) : (V m c main_v18 : (⟨S64x64, .bf16⟩ : BufTy).Contents (Elt F))
    = truncf .bf16 (transpose S64x64 [1, 0] (extractStridedSlice S64x64 ![0, 0] (m ((c : Thread nD τ).loc main_arg4)) slices_S64x128_S64x64_0_0) transposes_S64x64_S64x64_1_0) bitsLt_bf16_f32 := by
  dsimp only [V]
  simp only [hostOps0, hostOps0_1, hostOps0_2, List.flatten_cons, List.flatten_nil, List.append_nil, List.cons_append, List.nil_append]
  after_results_simp <;> rfl

/-- Window 3's array: the right half of the weight, transposed. -/
theorem wRight_eq (c : Dev nD) : (V m c main_v21 : (⟨S64x64, .bf16⟩ : BufTy).Contents (Elt F))
    = truncf .bf16 (transpose S64x64 [1, 0] (extractStridedSlice S64x64 ![0, 64] (m ((c : Thread nD τ).loc main_arg4)) slices_S64x128_S64x64_0_64) transposes_S64x64_S64x64_1_0) bitsLt_bf16_f32 := by
  dsimp only [V]
  simp only [hostOps0, hostOps0_1, hostOps0_2, List.flatten_cons, List.flatten_nil, List.append_nil, List.cons_append, List.nil_append]
  after_results_simp <;> rfl

/-- Window 4's array: the bias as one row. -/
theorem biasRow_eq (c : Dev nD) : (V m c main_v22 : (⟨S1x64, .f32⟩ : BufTy).Contents (Elt F))
    = shapeCast S1x64 (m ((c : Thread nD τ).loc main_arg5)) shapeCasts_S64_S1x64 := by
  dsimp only [V]
  simp only [hostOps0, hostOps0_1, hostOps0_2, List.flatten_cons, List.flatten_nil, List.append_nil, List.cons_append, List.nil_append]
  after_results_simp <;> rfl

end Cert.KernelIdeal.Staged

end
-- ==== Proof.Layer.lean ====
/-
  The layer, as one function.

  For every half-edge n the layer takes the feature row `nx[n, ·]` of its "next" half-edge and the (masked) feature
  row `tw[n, ·]` of its twin, and applies a linear map with a 64 × 128 weight `W` — whose first 64 columns meet the
  "next" features and whose last 64 the twin's — a bias `b` and a clamp at zero:

      layer nx tw W b [n, j] = max ( Σ_{k<64} nx[n,k] · W[j,k]  +  Σ_{k<64} tw[n,k] · W[j,64+k]  +  b[j] ,  0 ).

  One side of the certificate computes the two half sums separately; the other lays the two rows end to end and
  takes ONE sum over 128 terms.  The two agree because a sum over 128 = 64 + 64 terms is the sum of its two halves;
  that is a fact of any commutative monoid, the extended reals included, and asks nothing of the summands.
-/
import Idealize.ShloMosaic.PureOps.Ideal
import Mathlib.Algebra.BigOperators.Fin

noncomputable section

namespace Cert.Layer

open Idealize.ShloMosaic

/-- The shapes: features and output, the weight, the bias. -/
abbrev Feat : Shape := ⟨2, ![1000000, 64]⟩
abbrev Weight : Shape := ⟨2, ![64, 128]⟩
abbrev Bias : Shape := ⟨1, ![64]⟩

/-- Entry (n, k) of a feature array, for the output entry `i` = (n, j). -/
abbrev featAt (i : Feat.Idx) (k : Fin 64) : Feat.Idx := fun a => match a with
  | ⟨0, _⟩ => ⟨(i 0).val, (i 0).isLt⟩
  | ⟨1, _⟩ => ⟨k.val, k.isLt⟩
/-- Entry (j, k) of the weight, for the output entry `i` = (n, j). -/
abbrev weightAt (i : Feat.Idx) (k : Fin 128) : Weight.Idx := fun a => match a with
  | ⟨0, _⟩ => ⟨(i 1).val, (i 1).isLt⟩
  | ⟨1, _⟩ => ⟨k.val, k.isLt⟩
/-- Entry j of the bias, for the output entry `i` = (n, j). -/
abbrev biasAt (i : Feat.Idx) : Bias.Idx := fun a => match a with
  | ⟨0, _⟩ => ⟨(i 1).val, (i 1).isLt⟩

/-- The layer, entry by entry. -/
def layer (nx tw : Feat.Idx → EReal) (W : Weight.Idx → EReal) (b : Bias.Idx → EReal) : Feat.Idx → EReal :=
  fun i => max ((∑ k : Fin 64, nx (featAt i k) * W (weightAt i (Fin.castAdd 64 k)))
    + (∑ k : Fin 64, tw (featAt i k) * W (weightAt i (Fin.natAdd 64 k))) + b (biasAt i)) 0

/-- A sum over 128 terms is the sum of its first 64 and its last 64. -/
theorem sum_halves {M : Type} [AddCommMonoid M] (f : Fin 128 → M) :
    ∑ k : Fin 128, f k = (∑ k : Fin 64, f (Fin.castAdd 64 k)) + ∑ k : Fin 64, f (Fin.natAdd 64 k) :=
  Fin.sum_univ_add (a := 64) (b := 64) f

end Cert.Layer

end
-- ==== Proof.KernelLayer.lean ====
/-
  The kernel computes the layer.

  The two weight windows hold the left and the right 64 columns of the weight, each transposed: entry (k, j) of the
  left one is W[j, k] and of the right one W[j, 64 + k]; the bias window holds the bias as one row, entry (0, j) being
  b[j].  Put into the whole-output function of the staged arrays, that is the layer over the rows the host gathered.
-/
import proofs.«143284_j63668595196147_1_alg».proof.Proof.Rows
import proofs.«143284_j63668595196147_1_alg».proof.Proof.Staged
import proofs.«143284_j63668595196147_1_alg».proof.Proof.Layer

noncomputable section

namespace Cert.KernelIdeal.KernelLayer

open Cert.KernelIdeal Cert.KernelIdeal.Gen Cert.KernelIdeal.Rows Cert.KernelIdeal.Staged
open Idealize.ShloMosaic Idealize.ShloMosaic.TcCoe Idealize.ShloMosaic.ValueIdx Idealize.SL.Sem

/-- Entry (j, k) of a 64 × 64 half of the weight, for the output entry (n, j). -/
abbrev halfIdx (i : S1000000x64.Idx) (k : Fin 64) : S64x64.Idx := fun a => match a with
  | ⟨0, _⟩ => ⟨(i 1).val, (i 1).isLt⟩
  | ⟨1, _⟩ => ⟨k.val, k.isLt⟩

/-- The left half, transposed, at (k, j) is W[j, k]. -/
theorem left_apply (W : S64x128.Idx → EReal) (i : S1000000x64.Idx) (k : Fin 64) :
    (truncf .bf16 (transpose S64x64 [1, 0] (extractStridedSlice S64x64 ![0, 0] W slices_S64x128_S64x64_0_0) transposes_S64x64_S64x64_1_0) bitsLt_bf16_f32 : FVec Ideal S64x64 .bf16) (weightIdx i k)
      = W (Cert.Layer.weightAt i (Fin.castAdd 64 k)) := by
  rw [truncf_apply, transpose_apply [1, 0] _ transposes_S64x64_S64x64_1_0 (weightIdx i k) (halfIdx i k) (fun b => match b with
    | ⟨0, _⟩ => rfl
    | ⟨1, _⟩ => rfl)]
  exact extractStridedSlice_apply ![0, 0] W slices_S64x128_S64x64_0_0 (halfIdx i k) (Cert.Layer.weightAt i (Fin.castAdd 64 k)) (fun a => match a with
    | ⟨0, _⟩ => by show (i 1).val = 0 + (i 1).val; omega
    | ⟨1, _⟩ => by show k.val = 0 + k.val; omega)

/-- The right half, transposed, at (k, j) is W[j, 64 + k]. -/
theorem right_apply (W : S64x128.Idx → EReal) (i : S1000000x64.Idx) (k : Fin 64) :
    (truncf .bf16 (transpose S64x64 [1, 0] (extractStridedSlice S64x64 ![0, 64] W slices_S64x128_S64x64_0_64) transposes_S64x64_S64x64_1_0) bitsLt_bf16_f32 : FVec Ideal S64x64 .bf16) (weightIdx i k)
      = W (Cert.Layer.weightAt i (Fin.natAdd 64 k)) := by
  rw [truncf_apply, transpose_apply [1, 0] _ transposes_S64x64_S64x64_1_0 (weightIdx i k) (halfIdx i k) (fun b => match b with
    | ⟨0, _⟩ => rfl
    | ⟨1, _⟩ => rfl)]
  exact extractStridedSlice_apply ![0, 64] W slices_S64x128_S64x64_0_64 (halfIdx i k) (Cert.Layer.weightAt i (Fin.natAdd 64 k)) (fun a => match a with
    | ⟨0, _⟩ => by show (i 1).val = 0 + (i 1).val; omega
    | ⟨1, _⟩ => by show 64 + k.val = 64 + k.val; rfl)

/-- The bias as one row, at (0, j), is b[j]. -/
theorem biasRow_apply (b : S64.Idx → EReal) (i : S1000000x64.Idx) :
    shapeCast S1x64 b shapeCasts_S64_S1x64 (Rows.biasAt i) = b (Cert.Layer.biasAt i) := by
  rw [shapeCast_addUnit_apply ![64] b shapeCasts_S64_S1x64 (Rows.biasAt i)]
  exact congrArg b (funext fun a => Fin.ext (by
    match a with
    | ⟨0, _⟩ => rfl))

/-- The whole-output function of the staged arrays is the layer. -/
theorem layerOf_staged (a0 a1 : S1000000x64.Idx → EReal) (W : S64x128.Idx → EReal) (b : S64.Idx → EReal) :
    layerOf a0 a1
      (truncf .bf16 (transpose S64x64 [1, 0] (extractStridedSlice S64x64 ![0, 0] W slices_S64x128_S64x64_0_0) transposes_S64x64_S64x64_1_0) bitsLt_bf16_f32 : FVec Ideal S64x64 .bf16)
      (truncf .bf16 (transpose S64x64 [1, 0] (extractStridedSlice S64x64 ![0, 64] W slices_S64x128_S64x64_0_64) transposes_S64x64_S64x64_1_0) bitsLt_bf16_f32 : FVec Ideal S64x64 .bf16)
      (shapeCast S1x64 b shapeCasts_S64_S1x64)
      = Cert.Layer.layer a0 a1 W b := by
  funext i
  unfold layerOf Cert.Layer.layer
  rw [biasRow_apply,
    Finset.sum_congr rfl (fun k _ => congrArg (a0 (featIdx i k) * ·) (left_apply W i k)),
    Finset.sum_congr rfl (fun k _ => congrArg (a1 (featIdx i k) * ·) (right_apply W i k))]
  rfl

variable (m : (ℓ : Loc nD τ sig) → Buf (Elt Ideal) ℓ) (ρ : Dev nD → PrngReg)

/-- The kernel's result, as the layer over the rows the host gathered. -/
abbrev result (c : Dev nD) : S1000000x64.Idx → EReal :=
  Cert.Layer.layer (rowsAt (F := Ideal) (m ((c : Thread nD τ).loc main_arg0)) (m ((c : Thread nD τ).loc main_arg1)))
    (twinRows (F := Ideal) (m ((c : Thread nD τ).loc main_arg0)) (m ((c : Thread nD τ).loc main_arg2)) (m ((c : Thread nD τ).loc main_arg3)))
    (m ((c : Thread nD τ).loc main_arg4)) (m ((c : Thread nD τ).loc main_arg5))

/-- The output array after the run is that result. -/
theorem final_eq (c : Dev nD) : (dats m 0 c).arrAt 5 cfg0.N = result m c := by
  rw [Rows.final m c]
  show layerOf (V m c main_v6) (V m c main_v15) (V m c main_v18) (V m c main_v21) (V m c main_v22) = _
  rw [next_eq m c, twin_eq m c, wLeft_eq m c, wRight_eq m c, biasRow_eq m c]
  exact layerOf_staged _ _ _ _

/-- The kernel's run: the result array at the layer, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_eq m c), (h c).2⟩)
    (Cert.KernelIdeal.Value.run_blocks m ρ)

end Cert.KernelIdeal.KernelLayer

end
-- ==== Proof.RefLayer.lean ====
/-
  The reference computes the layer.

  The reference lays each half-edge's "next" row and (masked) twin row end to end as one row of 128 features,
  multiplies by the transposed weight in ONE product contracted over those 128, adds the bias along the rows and clamps
  at zero.  Read at an entry (n, j): column k < 64 of the joined row is the "next" row's entry k and column 64 + k the
  twin row's entry k, the transposed weight at (k, j) is W[j, k], so the 128-term sum is the two 64-term half sums
  of the layer.
-/
import proofs.«143284_j63668595196147_1_alg».proof.Proof.Gen.ReferenceIdeal.Read
import proofs.«143284_j63668595196147_1_alg».proof.Proof.Layer
import Idealize.ShloMosaic.Lib.Pipeline.Value
import Idealize.ShloMosaic.PureOps.Ideal.Laws

noncomputable section

namespace Cert.ReferenceIdeal.RefLayer

open Cert.ReferenceIdeal Cert.ReferenceIdeal.Gen Cert.ReferenceIdeal.Read Idealize.ShloMosaic Cert.Layer

variable (x0 : S1000000x64.Idx → EReal) (x1 x2 : S1000000.Idx → BitVec 32) (x3 : S1000000.Idx → BitVec 1)
  (x4 : S64x128.Idx → EReal) (x5 : S64.Idx → EReal)

/-- A column in the first half of the joined row is the "next" row's. -/
theorem joined_first (i : S1000000x64.Idx) (k : Fin 64) :
    val_main_v16 (F := Ideal) x0 x1 x2 x3 (lidx_main_v18 i (Fin.castAdd 64 k)) = val_main_v6 (F := Ideal) x0 x1 (featAt i k) := by
  unfold val_main_v16
  exact concatenate_pair_apply_left (t := S1000000x128) (s₁ := S1000000x64) (s₂ := S1000000x64) 1 _ _ concatenates_S1000000x64_S1000000x64_S1000000x128_d1
    (lidx_main_v18 i (Fin.castAdd 64 k)) rfl (featAt i k)
    (fun b => match b with
      | ⟨0, _⟩ => rfl
      | ⟨1, _⟩ => rfl)

/-- A column in the second half of the joined row is the twin row's, 64 columns back. -/
theorem joined_second (i : S1000000x64.Idx) (k : Fin 64) :
    val_main_v16 (F := Ideal) x0 x1 x2 x3 (lidx_main_v18 i (Fin.natAdd 64 k)) = val_main_v15 (F := Ideal) x0 x2 x3 (featAt i k) := by
  unfold val_main_v16
  exact concatenate_pair_apply_right (t := S1000000x128) (s₁ := S1000000x64) (s₂ := S1000000x64) 1 _ _ concatenates_S1000000x64_S1000000x64_S1000000x128_d1
    (lidx_main_v18 i (Fin.natAdd 64 k)) rfl rfl (featAt i k)
    (fun b hb => match b, hb with
      | ⟨0, _⟩, _ => rfl
      | ⟨1, _⟩, hb => absurd rfl hb)
    (by show k.val + 64 = 64 + k.val; omega)

/-- The transposed weight at (k, j) is the weight at (j, k). -/
theorem weight_apply (i : S1000000x64.Idx) (k : Fin 128) :
    val_main_v17 (F := Ideal) x4 (ridx_main_v18 i k) = x4 (weightAt i k) := by
  rw [val_main_v17_apply]
  exact congrArg x4 (funext fun a => Fin.ext (by
    match a with
    | ⟨0, _⟩ => rfl
    | ⟨1, _⟩ => rfl))

/-- The bias spread along the rows, at (n, j), is the bias at j. -/
theorem bias_apply (i : S1000000x64.Idx) : val_main_v20 (F := Ideal) x5 i = x5 (biasAt i) := by
  rw [val_main_v20_apply, val_main_v19_apply]
  exact congrArg x5 (funext fun a => Fin.ext (by
    match a with
    | ⟨0, _⟩ => rfl))

/-- The clamp's constant is zero. -/
theorem floor_apply (i : S1000000x64.Idx) : val_main_call1_v0 (F := Ideal) i = 0 := by
  rw [val_main_call1_v0_apply, val_main_call1_cst_apply]
  exact Ideal.ofBits_zero_f32

/-- THE REFERENCE'S RESULT is the layer over its own gathered rows. -/
theorem result_eq : val_main_v22 (F := Ideal) x0 x1 x2 x3 x4 x5
    = layer (val_main_v6 (F := Ideal) x0 x1) (val_main_v15 (F := Ideal) x0 x2 x3) x4 x5 := by
  funext i
  rw [val_main_v22_apply, val_main_v21_apply, val_main_v18_apply, floor_apply, bias_apply]
  show max ((∑ k : Fin 128, val_main_v16 (F := Ideal) x0 x1 x2 x3 (lidx_main_v18 i k) * val_main_v17 (F := Ideal) x4 (ridx_main_v18 i k)) + x5 (biasAt i)) 0 = _
  rw [sum_halves]
  simp only [joined_first, joined_second, weight_apply]
  rfl

end Cert.ReferenceIdeal.RefLayer

end
-- ==== Proof.lean ====
/-
  A linear layer over gathered half-edge features, with a clamp at zero.

  For each of 1000000 half-edges the program gathers the 64 features of its "next" half-edge and of its twin (the
  twin's row blanked to zero where there is none), and computes

      out[n, j] = max ( Σ_{k<64} next[n,k] · W[j,k]  +  Σ_{k<64} twin[n,k] · W[j,64+k]  +  b[j] ,  0 ).

  The kernel does so tile by tile (10000 half-edges at a grid point), with the weight cut into its two 64-column
  halves and one 64-term product per half; the reference joins the two rows into one of 128 features and takes one
  128-term product.  Over the extended reals the two are one function: the gathered rows are the same terms of the
  arguments on both sides, a change of float format is the identity, and a 128-term sum is the sum of its halves.
  Nothing here needs the inputs finite.  The kernel's idealization rewrote nothing, so `preserves` has nothing to say.
-/
import proofs.«143284_j63668595196147_1_alg».proof.Defs
import proofs.«143284_j63668595196147_1_alg».proof.Proof.Gen.Kernel
import proofs.«143284_j63668595196147_1_alg».proof.Proof.Gen.Kernel.Skeleton
import proofs.«143284_j63668595196147_1_alg».proof.Proof.Gen.Kernel.Launch
import proofs.«143284_j63668595196147_1_alg».proof.Proof.Gen.Kernel.Points
import proofs.«143284_j63668595196147_1_alg».proof.Proof.Gen.Kernel.Frame
import proofs.«143284_j63668595196147_1_alg».proof.Proof.Gen.KernelIdeal
import proofs.«143284_j63668595196147_1_alg».proof.Proof.Gen.KernelIdeal.Skeleton
import proofs.«143284_j63668595196147_1_alg».proof.Proof.Gen.KernelIdeal.Launch
import proofs.«143284_j63668595196147_1_alg».proof.Proof.Gen.KernelIdeal.Points
import proofs.«143284_j63668595196147_1_alg».proof.Proof.Gen.KernelIdeal.Frame
import proofs.«143284_j63668595196147_1_alg».proof.Proof.Gen.ReferenceIdeal
import proofs.«143284_j63668595196147_1_alg».proof.Proof.Gen.Pre_finite_inputs
import proofs.«143284_j63668595196147_1_alg».proof.Proof.Gen.KernelIdeal.Value
import proofs.«143284_j63668595196147_1_alg».proof.Proof.Gen.ReferenceIdeal.Run
import proofs.«143284_j63668595196147_1_alg».proof.Proof.Gen.ReferenceIdeal.Read
import proofs.«143284_j63668595196147_1_alg».proof.Proof.KernelLayer
import proofs.«143284_j63668595196147_1_alg».proof.Proof.RefLayer
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten. -/
theorem preserves : Cert.preserves_Kernel_KernelIdeal := trivial

/-- The rows the kernel's host code gathers are the rows the reference gathers: the same operations of the arguments. -/
theorem next_rows_eq (x0 : Cert.KernelIdeal.S1000000x64.Idx → EReal) (x1 : Cert.KernelIdeal.S1000000.Idx → BitVec 32) :
    Cert.ReferenceIdeal.Read.val_main_v6 (F := Ideal) x0 x1 = Cert.KernelIdeal.Staged.rowsAt (F := Ideal) x0 x1 := rfl

theorem twin_rows_eq (x0 : Cert.KernelIdeal.S1000000x64.Idx → EReal) (x2 : Cert.KernelIdeal.S1000000.Idx → BitVec 32) (x3 : Cert.KernelIdeal.S1000000.Idx → BitVec 1) :
    Cert.ReferenceIdeal.Read.val_main_v15 (F := Ideal) x0 x2 x3 = Cert.KernelIdeal.Staged.twinRows (F := Ideal) x0 x2 x3 := rfl

/-- Both programs end with the layer over the same gathered rows of arguments that agree. -/
theorem algebraic : Cert.algebraic_KernelIdeal_ReferenceIdeal := by
  intro m ρ m' ρ' _ hagree
  refine ⟨fun c => Cert.KernelIdeal.KernelLayer.result m c, Cert.KernelIdeal.KernelLayer.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5, Cert.ReferenceIdeal.Read.val_main_v22_eq, Cert.ReferenceIdeal.RefLayer.result_eq,
    next_rows_eq, twin_rows_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
